-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x128 : Shape := ⟨3, ![32, 1024, 128]⟩
abbrev S32x1024x1024 : Shape := ⟨3, ![32, 1024, 1024]⟩
abbrev S128x128 : Shape := ⟨2, ![128, 128]⟩
abbrev S128 : Shape := ⟨1, ![128]⟩
abbrev S_ : Shape := ⟨0, ![]⟩

class Facts : Prop where
  bcast_S_S32x1024x128 : S_.BroadcastsInDim S32x1024x128 (![] : Fin 0 → Fin S32x1024x128.rank)
  reducesTo_S32x1024x128_S_d0_1_2 : S32x1024x128.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S32x1024x128 .f32) (main_arg1 : FVec F S32x1024x1024 .f32) (main_arg2 : FVec F S128x128 .f32) (main_arg3 : FVec F S128 .f32) : IVec S_ 1 :=
  let main_v0 : FVec F S32x1024x128 .f32 := Host.absf main_arg0
  let main_cst : FVec F S_ .f32 := constant S_ .f32 0x7F800000#32
  let main_v1 : FVec F S32x1024x128 .f32 := broadcastInDim S32x1024x128 ![] bcast_S_S32x1024x128 main_cst
  let main_v2 : IVec S32x1024x128 1 := cmpf .olt main_v0 main_v1
  let main_c : IVec S_ 1 := constantI S_ 1 1#1
  let main_v3 : IVec S_ 1 := (fun x v => Host.reduce IntOp.andi x v reducesTo_S32x1024x128_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S32x1024x128 : Shape := ⟨3, ![32, 1024, 128]⟩
abbrev S32x1024x1024 : Shape := ⟨3, ![32, 1024, 1024]⟩
abbrev S128x128 : Shape := ⟨2, ![128, 128]⟩
abbrev S128 : Shape := ⟨1, ![128]⟩
abbrev S1x1024x128 : Shape := ⟨3, ![1, 1024, 128]⟩
abbrev S1x1024x1024 : Shape := ⟨3, ![1, 1024, 1024]⟩
abbrev S1024x128 : Shape := ⟨2, ![1024, 128]⟩
abbrev S1024x1024 : Shape := ⟨2, ![1024, 1024]⟩
abbrev S1x128 : Shape := ⟨2, ![1, 128]⟩

abbrev nBuf : Space → Nat
  | .hbm => 5
  | .vmem => 8
  | .smem => 0
  | _ => 0

abbrev bufTy : (tb : Table) → Fin (tcTables nBuf tb) → BufTy
  | .hbm, ⟨0, _⟩ => ⟨S32x1024x128, .f32⟩
  | .hbm, ⟨1, _⟩ => ⟨S32x1024x1024, .f32⟩
  | .hbm, ⟨2, _⟩ => ⟨S128x128, .f32⟩
  | .hbm, ⟨3, _⟩ => ⟨S128, .f32⟩
  | .hbm, ⟨4, _⟩ => ⟨S32x1024x128, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x1024, .f32⟩
  | .local _ .vmem, ⟨3, _⟩ => ⟨S1x1024x1024, .f32⟩
  | .local _ .vmem, ⟨4, _⟩ => ⟨S128x128, .f32⟩
  | .local _ .vmem, ⟨5, _⟩ => ⟨S128, .f32⟩
  | .local _ .vmem, ⟨6, _⟩ => ⟨S1x1024x128, .f32⟩
  | .local _ .vmem, ⟨7, _⟩ => ⟨S1x1024x128, .f32⟩
  | _, _ => ⟨S32x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  shapeCasts_S1024x128_S1x1024x128 : S1024x128.ShapeCasts S1x1024x128
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x1024x128.size a
  hwx0_0 : ∀ i : grid0.Coords, EltTy.bits .f32 = 32 ∨ (Rect.block (s := S32x1024x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S32x1024x128.size a
  hwx0_4 : ∀ i : grid0.Coords, EltTy.bits .f32 = 32 ∨ (Rect.block (s := S32x1024x128) S1x1024x128.size (cc0_transform_4 i) (hinb0_4 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x128 : Shape := ⟨3, ![32, 1024, 128]⟩
abbrev S32x1024x1024 : Shape := ⟨3, ![32, 1024, 1024]⟩
abbrev S128x128 : Shape := ⟨2, ![128, 128]⟩
abbrev S128 : Shape := ⟨1, ![128]⟩
abbrev S1x1x128 : Shape := ⟨3, ![1, 1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S32x1024x128, .f32⟩
  | .hbm, ⟨1, _⟩ => ⟨S32x1024x1024, .f32⟩
  | .hbm, ⟨2, _⟩ => ⟨S128x128, .f32⟩
  | .hbm, ⟨3, _⟩ => ⟨S128, .f32⟩
  | .hbm, ⟨4, _⟩ => ⟨S32x1024x128, .f32⟩
  | .hbm, ⟨5, _⟩ => ⟨S32x1024x128, .f32⟩
  | .hbm, ⟨6, _⟩ => ⟨S1x1x128, .f32⟩
  | .hbm, ⟨7, _⟩ => ⟨S32x1024x128, .f32⟩
  | .hbm, ⟨8, _⟩ => ⟨S32x1024x128, .f32⟩
  | .hbm, ⟨9, _⟩ => ⟨S_, .f32⟩
  | .hbm, ⟨10, _⟩ => ⟨S32x1024x128, .f32⟩
  | .hbm, ⟨11, _⟩ => ⟨S32x1024x128, .f32⟩
  | _, _ => ⟨S32x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S32x1024x128_0_1_2 : S1x1x128.BroadcastsInDim S32x1024x128 (![0, 1, 2] : Fin 3 → Fin S32x1024x128.rank)
  bcast_S_S32x1024x128 : S_.BroadcastsInDim S32x1024x128 (![] : Fin 0 → Fin S32x1024x128.rank)
  dot_S32x1024x128_S128x128_S32x1024x128_2_0_01_1_n_n_wf : DotDims.WF S32x1024x128 S128x128 S32x1024x128 [2] [0] [0, 1] [1] [] []
  dot_S32x1024x1024_S32x1024x128_S32x1024x128_2_1_1_2_0_0_wf : DotDims.WF S32x1024x1024 S32x1024x128 S32x1024x128 [2] [1] [1] [2] [0] [0]

variable [Facts₀]

def dot_S32x1024x128_S128x128_S32x1024x128_2_0_01_1_n_n : DotDims S32x1024x128 S128x128 S32x1024x128 where
  lhsContracting := [2]
  rhsContracting := [0]
  lhsNonContracting := [0, 1]
  rhsNonContracting := [1]
  lhsBatch := []
  rhsBatch := []
  wf := dot_S32x1024x128_S128x128_S32x1024x128_2_0_01_1_n_n_wf
def dot_S32x1024x1024_S32x1024x128_S32x1024x128_2_1_1_2_0_0 : DotDims S32x1024x1024 S32x1024x128 S32x1024x128 where
  lhsContracting := [2]
  rhsContracting := [1]
  lhsNonContracting := [1]
  rhsNonContracting := [2]
  lhsBatch := [0]
  rhsBatch := [0]
  wf := dot_S32x1024x1024_S32x1024x128_S32x1024x128_2_1_1_2_0_0_wf

class Facts : Prop extends Facts₀ where

variable [Facts]
-- ==== Proof.LayerSpec.lean ====
/-
  One graph-convolution layer over a batch of 32 graphs of 1024 nodes, 128 input and 128 output channels, as a
  function of its four arrays on the extended reals.

  For graph g, node n and output channel h the layer's value is

      max ( Σ_k adj[g, n, k] · ( Σ_f x[g, k, f] · W[f, h] ) + bias[h] , 0 ).

  The inner sum is the projection of node k's features onto channel h; the outer sum gathers the projections of
  the nodes k weighted by row n of the graph's adjacency; the bias is added per channel and the result is clamped
  below at zero. The zero is kept as the word both programs print, so it is never evaluated.
-/
import Idealize.ShloMosaic.Lib.ValueIdx
import Idealize.ShloMosaic.PureOps.Ideal

noncomputable section

open scoped BigOperators

namespace Cert.Layer

open Idealize.ShloMosaic Idealize.ShloMosaic.ValueIdx

/-- Node k of graph g projected onto channel h: the row x[g, k, ·] against the column W[·, h]. -/
def proj (x : FVec Ideal ⟨3, ![32, 1024, 128]⟩ .f32) (W : FVec Ideal ⟨2, ![128, 128]⟩ .f32)
    (g : Fin 32) (k : Fin 1024) (h : Fin 128) : EReal :=
  ∑ f : Fin 128, x (ix3 g k f) * W (ix2 f h)

/-- The layer at (g, n, h) by coordinates: row n of graph g's adjacency against the projections of all nodes onto
    channel h, plus the channel's bias, clamped below at zero. -/
def at3 (x : FVec Ideal ⟨3, ![32, 1024, 128]⟩ .f32) (adj : FVec Ideal ⟨3, ![32, 1024, 1024]⟩ .f32)
    (W : FVec Ideal ⟨2, ![128, 128]⟩ .f32) (bias : FVec Ideal ⟨1, ![128]⟩ .f32)
    (g : Fin 32) (n : Fin 1024) (h : Fin 128) : EReal :=
  max ((∑ k : Fin 1024, adj (ix3 g n k) * proj x W g k h) + bias (ix1 h)) (Ideal.ofBits .f32 0x00000000#32)

/-- The layer as one array of shape [32, 1024, 128]. -/
def layer (x : FVec Ideal ⟨3, ![32, 1024, 128]⟩ .f32) (adj : FVec Ideal ⟨3, ![32, 1024, 1024]⟩ .f32)
    (W : FVec Ideal ⟨2, ![128, 128]⟩ .f32) (bias : FVec Ideal ⟨1, ![128]⟩ .f32) :
    FVec Ideal ⟨3, ![32, 1024, 128]⟩ .f32 :=
  fun i => at3 x adj W bias (i 0) (i 1) (i 2)

theorem layer_ix3 (x : FVec Ideal ⟨3, ![32, 1024, 128]⟩ .f32) (adj : FVec Ideal ⟨3, ![32, 1024, 1024]⟩ .f32)
    (W : FVec Ideal ⟨2, ![128, 128]⟩ .f32) (bias : FVec Ideal ⟨1, ![128]⟩ .f32)
    (g : Fin 32) (n : Fin 1024) (h : Fin 128) :
    layer x adj W bias (ix3 g n h) = at3 x adj W bias g n h := rfl

end Cert.Layer

end
-- ==== Proof.RefIsLayer.lean ====
/-
  The reference's result is the layer.

  The reference computes, as whole-array stages, the projection x · W (a contraction over the feature axis), the
  batched product adj · (x · W) (a contraction over the node axis, the graph axis carried along), the bias spread
  over graphs and nodes, their sum, and the maximum with a zero array. Read at an index (g, n, h), each contraction
  is the sum over its one contracted coordinate, and the operands' indices are (g, n, k) and (g, k, h) for the
  outer product and (g, k, f) and (f, h) for the inner one; the bias is read at h. That is the layer's formula term
  by term.
-/
import proofs.«126817_j77214922048113_1_alg».proof.Proof.Gen.ReferenceIdeal.Read
import proofs.«126817_j77214922048113_1_alg».proof.Proof.LayerSpec

noncomputable section

open scoped BigOperators

namespace Cert.ReferenceIdeal.RefValue

open Cert.ReferenceIdeal Cert.ReferenceIdeal.Read Idealize.ShloMosaic Idealize.ShloMosaic.ValueIdx

/-- The adjacency operand of the outer product at output index (g, n, h) and contracted node k is (g, n, k). -/
theorem adj_idx (g : Fin 32) (n : Fin 1024) (h : Fin 128) (k : Fin 1024) :
    lidx_main_v1 (ix3 g n h) k = ix3 g n k :=
  funext fun a => match a with | ⟨0, _⟩ => rfl | ⟨1, _⟩ => rfl | ⟨2, _⟩ => rfl

/-- The projection operand of the outer product at output index (g, n, h) and contracted node k is (g, k, h). -/
theorem proj_idx (g : Fin 32) (n : Fin 1024) (h : Fin 128) (k : Fin 1024) :
    ridx_main_v1 (ix3 g n h) k = ix3 g k h :=
  funext fun a => match a with | ⟨0, _⟩ => rfl | ⟨1, _⟩ => rfl | ⟨2, _⟩ => rfl

/-- The feature operand of the inner product at (g, k, h) and contracted feature f is (g, k, f). -/
theorem feat_idx (g : Fin 32) (k : Fin 1024) (h : Fin 128) (f : Fin 128) :
    lidx_main_v0 (ix3 g k h) f = ix3 g k f :=
  funext fun a => match a with | ⟨0, _⟩ => rfl | ⟨1, _⟩ => rfl | ⟨2, _⟩ => rfl

/-- The weight operand of the inner product at (g, k, h) and contracted feature f is (f, h). -/
theorem weight_idx (g : Fin 32) (k : Fin 1024) (h : Fin 128) (f : Fin 128) :
    ridx_main_v0 (ix3 g k h) f = ix2 f h :=
  funext fun a => match a with | ⟨0, _⟩ => rfl | ⟨1, _⟩ => rfl

/-- The bias spread over graphs and nodes reads, at (g, n, h), the bias at h. -/
theorem bias_idx (g : Fin 32) (n : Fin 1024) (h : Fin 128) : idx_main_v2 (idx_main_v3 (ix3 g n h)) = ix1 h :=
  funext fun a => match a with | ⟨0, _⟩ => rfl

/-- The projection stage at (g, k, h) is the layer's inner sum. -/
theorem proj_stage (x0 : FVec Ideal S32x1024x128 .f32) (x2 : FVec Ideal S128x128 .f32)
    (g : Fin 32) (k : Fin 1024) (h : Fin 128) :
    val_main_v0 (F := Ideal) x0 x2 (ix3 g k h) = Cert.Layer.proj x0 x2 g k h := by
  rw [val_main_v0_apply]
  unfold Cert.Layer.proj
  exact Finset.sum_congr rfl fun f _ => by rw [feat_idx, weight_idx]

/-- The reference's last stage, as a whole array, is the layer of its four arguments. -/
theorem ref_eq_layer (x0 : FVec Ideal S32x1024x128 .f32) (x1 : FVec Ideal S32x1024x1024 .f32)
    (x2 : FVec Ideal S128x128 .f32) (x3 : FVec Ideal S128 .f32) :
    val_main_v5 (F := Ideal) x0 x1 x2 x3 = Cert.Layer.layer x0 x1 x2 x3 := by
  funext i
  obtain ⟨g, n, h, rfl⟩ : ∃ (g : Fin 32) (n : Fin 1024) (h : Fin 128), i = ix3 g n h := ⟨i 0, i 1, i 2, eq_ix3 i⟩
  rw [val_main_v5_apply, val_main_v4_apply, val_main_v1_apply, val_main_v3_apply, val_main_v2_apply,
    val_main_call0_v0_apply, val_main_call0_cst_apply, bias_idx, Cert.Layer.layer_ix3]
  have outer : (∑ k : Fin 1024, x1 (lidx_main_v1 (ix3 g n h) k) * val_main_v0 (F := Ideal) x0 x2 (ridx_main_v1 (ix3 g n h) k))
      = ∑ k : Fin 1024, x1 (ix3 g n k) * Cert.Layer.proj x0 x2 g k h :=
    Finset.sum_congr rfl fun k _ => by rw [adj_idx, proj_idx, proj_stage]
  rw [outer]
  rfl

end Cert.ReferenceIdeal.RefValue

end
-- ==== Proof.KernelBlock.lean ====
/-
  What the kernel body stores, read at an index of its output block.

  At one grid point the body holds one graph: its feature block x[1, 1024, 128], its adjacency block
  adj[1, 1024, 1024], the whole weight matrix W[128, 128] and the whole bias b[128]. It drops the unit axis of the
  two blocks, multiplies the features by the weights into a zero accumulator, multiplies the adjacency by that
  product into a zero accumulator, adds the bias row spread over the 1024 nodes, takes the maximum with a zero
  splat, and puts the unit axis back. The changes of float format in between are the identity on extended reals.

  A product of two matrices into the zero accumulator, read at (r, c), is the sum over the one contracted
  coordinate j of the left operand at (r, j) times the right operand at (j, c). So the stored block at (u, n, h) is

      max ( Σ_k adj[0, n, k] · ( Σ_f x[0, k, f] · W[f, h] ) + b[h] , 0 ).
-/
import proofs.«126817_j77214922048113_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## Features times weights: [1024, 128] · [128, 128] -/

theorem fw_lhs_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem fw_lhs_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem fw_rhs_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem fw_rhs_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The features-by-weights product into the zero accumulator, at (k, h): the sum over the feature f of the left
    operand at (k, f) times the right operand at (f, h). -/
theorem fw_apply (A : FVec Ideal S1024x128 .bf16) (B : FVec Ideal S128x128 .bf16) (k : Fin 1024) (h : Fin 128) :
    matmul dot_S1024x128_S128x128_S1024x128_1_0_0_1_n_n none A B (constant (F := Ideal) S1024x128 .f32 0x00000000#32) (ix2 k h)
      = ∑ f : Fin 128, A (ix2 k f) * B (ix2 f h) := by
  simp only [matmul]
  rw [Ideal.matmul_constant_zero_apply, ← Equiv.sum_comp (contrEquiv1 dot_S1024x128_S128x128_S1024x128_1_0_0_1_n_n 128 rfl rfl).symm]
  refine Finset.sum_congr rfl fun f _ => ?_
  have hk := contrEquiv1_symm_val dot_S1024x128_S128x128_S1024x128_1_0_0_1_n_n 128 rfl rfl f
  have el : dot_S1024x128_S128x128_S1024x128_1_0_0_1_n_n.lhsIdx (ix2 k h) ((contrEquiv1 dot_S1024x128_S128x128_S1024x128_1_0_0_1_n_n 128 rfl rfl).symm f) = ix2 k f := funext fun a => Fin.ext (by
    match a with
    | ⟨0, _⟩ => exact fw_lhs_0 _ _
    | ⟨1, _⟩ => exact (fw_lhs_1 _ _).trans hk)
  have er : dot_S1024x128_S128x128_S1024x128_1_0_0_1_n_n.rhsIdx (ix2 k h) ((contrEquiv1 dot_S1024x128_S128x128_S1024x128_1_0_0_1_n_n 128 rfl rfl).symm f) = ix2 f h := funext fun a => Fin.ext (by
    match a with
    | ⟨0, _⟩ => exact (fw_rhs_0 _ _).trans hk
    | ⟨1, _⟩ => exact fw_rhs_1 _ _)
  rw [el, er]

/-! ## Adjacency times projections: [1024, 1024] · [1024, 128] -/

theorem ap_lhs_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem ap_lhs_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem ap_rhs_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem ap_rhs_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The adjacency-by-projections product into the zero accumulator, at (n, h): the sum over the node k of the left
    operand at (n, k) times the right operand at (k, h). -/
theorem ap_apply (A : FVec Ideal S1024x1024 .bf16) (B : FVec Ideal S1024x128 .bf16) (n : Fin 1024) (h : Fin 128) :
    matmul dot_S1024x1024_S1024x128_S1024x128_1_0_0_1_n_n none A B (constant (F := Ideal) S1024x128 .f32 0x00000000#32) (ix2 n h)
      = ∑ k : Fin 1024, A (ix2 n k) * B (ix2 k h) := by
  simp only [matmul]
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 n h) ((contrEquiv1 dot_S1024x1024_S1024x128_S1024x128_1_0_0_1_n_n 1024 rfl rfl).symm k) = ix2 n k := funext fun a => Fin.ext (by
    match a with
    | ⟨0, _⟩ => exact ap_lhs_0 _ _
    | ⟨1, _⟩ => exact (ap_lhs_1 _ _).trans hk)
  have er : dot_S1024x1024_S1024x128_S1024x128_1_0_0_1_n_n.rhsIdx (ix2 n h) ((contrEquiv1 dot_S1024x1024_S1024x128_S1024x128_1_0_0_1_n_n 1024 rfl rfl).symm k) = ix2 k h := funext fun a => Fin.ext (by
    match a with
    | ⟨0, _⟩ => exact (ap_rhs_0 _ _).trans hk
    | ⟨1, _⟩ => exact ap_rhs_1 _ _)
  rw [el, er]

/-! ## The stored block at an index -/

/-- The body's one stored value at (u, n, h), from the four loaded blocks. -/
theorem stored_at (xb : Vec Ideal S1x1024x128 .f32) (wb : Vec Ideal S128x128 .f32) (ab : Vec Ideal S1x1024x1024 .f32)
    (bb : Vec Ideal S128 .f32) (u : Fin 1) (n : Fin 1024) (h : Fin 128) :
    k0_pay1 (F := Ideal) xb wb ab bb (ix3 u n h)
      = max ((∑ k : Fin 1024, ab (ix3 (0 : Fin 1) n k) * ∑ f : Fin 128, xb (ix3 (0 : Fin 1) k f) * wb (ix2 f h))
          + bb (ix1 h)) (Ideal.ofBits .f32 0x00000000#32) := by
  unfold k0_pay1
  rw [shapeCast_ab_1ab_apply, maximumf_apply, addf_apply, broadcast_apply, broadcastTo_1b_ab_apply,
    shapeCast_a_1a_apply, ap_apply]
  simp only [truncf_apply, shapeCast_1ab_ab_apply, fw_apply]
  rfl

end Cert.KernelIdeal.Block

end
-- ==== Proof.KernelArray.lean ====
/-
  The kernel's result array is the layer of its four argument arrays.

  The grid has one point per graph. At point t the feature window and the adjacency window hold block t of their
  arrays along the graph axis (whole along the other two), the weight and bias windows hold their whole arrays at
  every point, and the output window writes back block t of the result along the graph axis. So the feature block
  at (0, k, f) is x[t, k, f], the adjacency block at (0, n, k) is adj[t, n, k], and the stored block at (u, n, h)
  — the body's formula over its blocks — is the layer at (t, n, h): what point t writes back is block t of the
  layer. Every index (g, n, h) of the result lies in the block of the one point whose graph is g, so the blocks
  cover the array and the array ends as the layer.
-/
import proofs.«126817_j77214922048113_1_alg».proof.Proof.Gen.KernelIdeal.Value
import proofs.«126817_j77214922048113_1_alg».proof.Proof.KernelBlock
import proofs.«126817_j77214922048113_1_alg».proof.Proof.LayerSpec

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-! ## The body's formula over blocks that are slices of the arrays -/

/-- If the four loaded blocks are graph g's slices of the arrays (the weights and the bias whole), the stored block at
    (u, n, h) is the layer at (g, n, h). -/
theorem stored_is_layer (X : FVec Ideal S32x1024x128 .f32) (A : FVec Ideal S32x1024x1024 .f32)
    (W : FVec Ideal S128x128 .f32) (B : FVec Ideal S128 .f32) (g : Fin 32)
    (xb : Vec Ideal S1x1024x128 .f32) (wb : Vec Ideal S128x128 .f32) (ab : Vec Ideal S1x1024x1024 .f32)
    (bb : Vec Ideal S128 .f32)
    (hx : ∀ (k : Fin 1024) (f : Fin 128), xb (ix3 (0 : Fin 1) k f) = X (ix3 g k f))
    (ha : ∀ (n k : Fin 1024), ab (ix3 (0 : Fin 1) n k) = A (ix3 g n k))
    (hw : ∀ (f h : Fin 128), wb (ix2 f h) = W (ix2 f h))
    (hb : ∀ h : Fin 128, bb (ix1 h) = B (ix1 h))
    (u : Fin 1) (n : Fin 1024) (h : Fin 128) :
    k0_pay1 (F := Ideal) xb wb ab bb (ix3 u n h) = Cert.Layer.layer X A W B (ix3 g n h) := by
  rw [Cert.KernelIdeal.Block.stored_at, Cert.Layer.layer_ix3]
  unfold Cert.Layer.at3 Cert.Layer.proj
  simp only [hx, ha, hw, hb]

/-! ## The index maps over the grid -/

/-- The printed index maps, decided over the 32 points: the feature, adjacency and output windows sit at the same
    block along the graph axis and at block 0 along the others; the weight and bias windows sit at block 0; the
    graph block is below 32. -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (1 : Fin 3) = 0 ∧ win0_4.index t (2 : Fin 3) = 0
    ∧ win0_4.index t (0 : Fin 3) < 32 :=
  (by decide +kernel : ∀ t : Fin grid0.N, _)

/-- Every graph is some point's. -/
theorem idx_onto : ∀ q : Fin 32, ∃ t : Fin cfg0.N, win0_4.index t = ![q.val, 0, 0] :=
  (by decide +kernel : ∀ q : Fin 32, ∃ t : Fin grid0.N, win0_4.index t = ![q.val, 0, 0])

/-! ## What a point writes back -/

/-- What point t writes back is block t of the layer of the argument arrays as the region finds them. -/
theorem flushed_eq (c : Dev nD) (t : Fin cfg0.N) :
    (dats m 0 c).flushed 4 t = ((cfg0.win 4).blk t).view.read (Elt Ideal)
      (Cert.Layer.layer (V m c main_arg0) (V m c main_arg1) (V m c main_arg2) (V m c main_arg3)) := by
  rw [Cert.KernelIdeal.Value.flushed4]
  unfold out0_4
  rw [View.canon_unit_zero zero3]
  simp only [View.ld_unit_zero (S := S1x1024x128) zero3, View.ld_unit_zero (S := S1x1024x1024) zero3,
    View.ld_unit_zero (S := S128x128) zero2, View.ld_unit_zero (S := S128) zero1]
  obtain ⟨e00, e01, e02, e10, e11, e12, e20, e21, e30, e41, e42, e4lt⟩ := idx_facts t
  funext j
  obtain ⟨u, n, h, rfl⟩ : ∃ (u : Fin 1) (n : Fin 1024) (h : Fin 128), j = ix3 u n h := ⟨j 0, j 1, j 2, eq_ix3 j⟩
  show k0_pay1 (F := Ideal) (iblk m c 0 t) (iblk m c 2 t) (iblk m c 1 t) (iblk m c 3 t) (ix3 u n h)
    = Cert.Layer.layer (V m c main_arg0) (V m c main_arg1) (V m c main_arg2) (V m c main_arg3)
        (((cfg0.win 4).blk t).view.emb (ix3 u n h))
  have hout : ((cfg0.win 4).blk t).view.emb (ix3 u n h) = ix3 (⟨win0_4.index t (0 : Fin 3), e4lt⟩ : Fin 32) n h := by
    funext a; apply Fin.ext
    match a with
    | ⟨0, _⟩ => show win0_4.index t (0 : Fin 3) * 1 + 1 * u.val = win0_4.index t (0 : Fin 3); have hu := u.isLt; omega
    | ⟨1, _⟩ => show win0_4.index t (1 : Fin 3) * 1024 + 1 * n.val = n.val; omega
    | ⟨2, _⟩ => show win0_4.index t (2 : Fin 3) * 128 + 1 * h.val = h.val; omega
  rw [hout]
  refine stored_is_layer (V m c main_arg0) (V m c main_arg1) (V m c main_arg2) (V m c main_arg3)
    (⟨win0_4.index t (0 : Fin 3), e4lt⟩ : Fin 32) (iblk m c 0 t) (iblk m c 2 t) (iblk m c 1 t) (iblk m c 3 t) ?_ ?_ ?_ ?_ u n h
  · intro k f
    show V m c main_arg0 (((cfg0.win 0).blk t).view.emb (ix3 (0 : Fin 1) k f)) = V m c main_arg0 (ix3 (⟨win0_4.index t (0 : Fin 3), e4lt⟩ : Fin 32) k f)
    refine congrArg (V m c main_arg0) (funext fun a => Fin.ext ?_)
    match a with
    | ⟨0, _⟩ => show win0_0.index t (0 : Fin 3) * 1 + 1 * 0 = win0_4.index t (0 : Fin 3); omega
    | ⟨1, _⟩ => show win0_0.index t (1 : Fin 3) * 1024 + 1 * k.val = k.val; omega
    | ⟨2, _⟩ => show win0_0.index t (2 : Fin 3) * 128 + 1 * f.val = f.val; omega
  · intro n' k
    show V m c main_arg1 (((cfg0.win 1).blk t).view.emb (ix3 (0 : Fin 1) n' k)) = V m c main_arg1 (ix3 (⟨win0_4.index t (0 : Fin 3), e4lt⟩ : Fin 32) n' k)
    refine congrArg (V m c main_arg1) (funext fun a => Fin.ext ?_)
    match a with
    | ⟨0, _⟩ => show win0_1.index t (0 : Fin 3) * 1 + 1 * 0 = win0_4.index t (0 : Fin 3); omega
    | ⟨1, _⟩ => show win0_1.index t (1 : Fin 3) * 1024 + 1 * n'.val = n'.val; omega
    | ⟨2, _⟩ => show win0_1.index t (2 : Fin 3) * 1024 + 1 * k.val = k.val; omega
  · intro f h'
    show V m c main_arg2 (((cfg0.win 2).blk t).view.emb (ix2 f h')) = V m c main_arg2 (ix2 f h')
    refine congrArg (V m c main_arg2) (funext fun a => Fin.ext ?_)
    match a with
    | ⟨0, _⟩ => show win0_2.index t (0 : Fin 2) * 128 + 1 * f.val = f.val; omega
    | ⟨1, _⟩ => show win0_2.index t (1 : Fin 2) * 128 + 1 * h'.val = h'.val; omega
  · intro h'
    show V m c main_arg3 (((cfg0.win 3).blk t).view.emb (ix1 h')) = V m c main_arg3 (ix1 h')
    refine congrArg (V m c main_arg3) (funext fun a => Fin.ext ?_)
    match a with
    | ⟨0, _⟩ => show win0_3.index t (0 : Fin 1) * 128 + 1 * h'.val = h'.val; omega

/-! ## The blocks cover the array -/

/-- An index of the result is in point t's block iff each coordinate is in the block's range on its axis. -/
theorem mem_blk (t : Fin cfg0.N) (i : S32x1024x128.Idx) :
    i ∈ ((cfg0.win 4).blk t).view.set ↔ ∀ a : Fin 3, win0_4.index t a * S1x1024x128.size a ≤ (i a).val ∧ (i a).val < win0_4.index t a * S1x1024x128.size a + S1x1024x128.size a := by
  show i ∈ ((View.whole main_v0).slice (win0_4.rect t)).set ↔ _
  rw [View.set_slice_whole, Rect.mem_set_unit]
  exact Iff.rfl

/-- Every index (g, n, h) of the result is in the block of the point whose graph is g, and that point writes back. -/
theorem cover (i : S32x1024x128.Idx) :
    ∃ t : Fin cfg0.N, (cfg0.win 4).flush t = true ∧ i ∈ ((cfg0.win 4).blk t).view.set := by
  have h0 : (i 0).val < 32 := (i 0).isLt
  have h1 : (i 1).val < 1024 := (i 1).isLt
  have h2 : (i 2).val < 128 := (i 2).isLt
  obtain ⟨t, ht⟩ := idx_onto ⟨(i 0).val, h0⟩
  have q0 : win0_4.index t (0 : Fin 3) = (i 0).val := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 128 ≤ (i 2).val ∧ (i 2).val < win0_4.index t (2 : Fin 3) * 128 + 128; omega

/-! ## The array after the run, and the run -/

/-- The result array after the run is the layer of the argument arrays as launched. -/
theorem final (c : Dev nD) : (dats m 0 c).arrAt 4 cfg0.N
    = Cert.Layer.layer (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- Every weakly fair execution of the kernel program ends with the result array at the layer of the arguments, the
    arguments unchanged. -/
theorem run : θ_run defs (onTc (τ := τ) (main (F := Ideal))) ⟨m, fun _ => 0, ρ⟩ fun r => ∀ c : Dev nD,
      r.2.mem ((c : Thread nD τ).loc main_v0)
        = Cert.Layer.layer (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Whole

end
-- ==== Proof.lean ====
/-
  A graph-convolution layer computed one graph per grid point equals the batched reference.

  Kernel: for each of 32 graphs, out[g] = max(adj[g] · (x[g] · W) + b, 0), the two products taken into zero
  accumulators on operands narrowed to a shorter float format. Reference: the same two contractions written as
  batched products over all graphs at once, the bias spread over graphs and nodes, and the maximum with a zero
  array. On the extended reals a change of float format is the identity and a product into a zero accumulator is
  the plain sum over the contracted coordinate, so at every index (g, n, h) both programs compute

      max ( Σ_k adj[g, n, k] · ( Σ_f x[g, k, f] · W[f, h] ) + b[h] , 0 ),

  with the sums nested the same way on both sides: no law of the extended reals beyond reading each operation at
  an index is needed, and the finiteness of the inputs is never used.

  The pieces: LayerSpec states that formula as one function of the four arrays; RefIsLayer reads the reference's
  stages at an index and finds the formula; KernelBlock reads the kernel body's stored block at an index;
  KernelArray places the blocks along the graph axis and shows they cover the result array. The three frames are
  the generated ones (the reference's is its run with the result dropped), and the idealization rewrote nothing, so
  the sanctioned-idealization conjunct is trivial.
-/
import proofs.«126817_j77214922048113_1_alg».proof.Defs
import proofs.«126817_j77214922048113_1_alg».proof.Proof.Gen.Kernel
import proofs.«126817_j77214922048113_1_alg».proof.Proof.Gen.Kernel.Skeleton
import proofs.«126817_j77214922048113_1_alg».proof.Proof.Gen.Kernel.Launch
import proofs.«126817_j77214922048113_1_alg».proof.Proof.Gen.Kernel.Points
import proofs.«126817_j77214922048113_1_alg».proof.Proof.Gen.Kernel.Frame
import proofs.«126817_j77214922048113_1_alg».proof.Proof.Gen.KernelIdeal
import proofs.«126817_j77214922048113_1_alg».proof.Proof.Gen.KernelIdeal.Skeleton
import proofs.«126817_j77214922048113_1_alg».proof.Proof.Gen.KernelIdeal.Launch
import proofs.«126817_j77214922048113_1_alg».proof.Proof.Gen.KernelIdeal.Points
import proofs.«126817_j77214922048113_1_alg».proof.Proof.Gen.KernelIdeal.Frame
import proofs.«126817_j77214922048113_1_alg».proof.Proof.Gen.ReferenceIdeal
import proofs.«126817_j77214922048113_1_alg».proof.Proof.Gen.Pre_finite_inputs
import proofs.«126817_j77214922048113_1_alg».proof.Proof.Gen.KernelIdeal.Value
import proofs.«126817_j77214922048113_1_alg».proof.Proof.Gen.ReferenceIdeal.Run
import proofs.«126817_j77214922048113_1_alg».proof.Proof.Gen.ReferenceIdeal.Read
import proofs.«126817_j77214922048113_1_alg».proof.Proof.LayerSpec
import proofs.«126817_j77214922048113_1_alg».proof.Proof.RefIsLayer
import proofs.«126817_j77214922048113_1_alg».proof.Proof.KernelBlock
import proofs.«126817_j77214922048113_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the four arguments both programs end with the layer of those arguments in their result
    array: the kernel by covering the array with one block per graph, the reference by reading its last stage at an
    index. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v5_eq _ _ _ _).trans (Cert.ReferenceIdeal.RefValue.ref_eq_layer _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
